-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x256x64 : Shape := ⟨4, ![16, 128, 256, 64]⟩
abbrev S64x64 : Shape := ⟨2, ![64, 64]⟩
abbrev S_ : Shape := ⟨0, ![]⟩

class Facts : Prop where
  bcast_S_S16x128x256x64 : S_.BroadcastsInDim S16x128x256x64 (![] : Fin 0 → Fin S16x128x256x64.rank)
  reducesTo_S16x128x256x64_S_d0_1_2_3 : S16x128x256x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S16x128x256x64 .f32) (main_arg1 : FVec F S64x64 .f32) : IVec S_ 1 :=
  let main_v0 : FVec F S16x128x256x64 .f32 := Host.absf main_arg0
  let main_cst : FVec F S_ .f32 := constant S_ .f32 0x7F800000#32
  let main_v1 : FVec F S16x128x256x64 .f32 := broadcastInDim S16x128x256x64 ![] bcast_S_S16x128x256x64 main_cst
  let main_v2 : IVec S16x128x256x64 1 := cmpf .olt main_v0 main_v1
  let main_c : IVec S_ 1 := constantI S_ 1 1#1
  let main_v3 : IVec S_ 1 := (fun x v => Host.reduce IntOp.andi x v reducesTo_S16x128x256x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S16x128x256x64 : Shape := ⟨4, ![16, 128, 256, 64]⟩
abbrev S64x64 : Shape := ⟨2, ![64, 64]⟩
abbrev S524288x64 : Shape := ⟨2, ![524288, 64]⟩
abbrev S16384x64 : Shape := ⟨2, ![16384, 64]⟩
abbrev S16384 : Shape := ⟨1, ![16384]⟩
abbrev S16384x1 : Shape := ⟨2, ![16384, 1]⟩
abbrev S64 : Shape := ⟨1, ![64]⟩
abbrev S1x64 : Shape := ⟨2, ![1, 64]⟩

abbrev nBuf : Space → Nat
  | .hbm => 5
  | .vmem => 5
  | .smem => 0
  | _ => 0

abbrev bufTy : (tb : Table) → Fin (tcTables nBuf tb) → BufTy
  | .hbm, ⟨0, _⟩ => ⟨S16x128x256x64, .f32⟩
  | .hbm, ⟨1, _⟩ => ⟨S64x64, .f32⟩
  | .hbm, ⟨2, _⟩ => ⟨S524288x64, .f32⟩
  | .hbm, ⟨3, _⟩ => ⟨S524288x64, .f32⟩
  | .hbm, ⟨4, _⟩ => ⟨S16x128x256x64, .f32⟩
  | .local _ .vmem, ⟨0, _⟩ => ⟨S16384x64, .f32⟩
  | .local _ .vmem, ⟨1, _⟩ => ⟨S16384x64, .f32⟩
  | .local _ .vmem, ⟨2, _⟩ => ⟨S64x64, .f32⟩
  | .local _ .vmem, ⟨3, _⟩ => ⟨S16384x64, .f32⟩
  | .local _ .vmem, ⟨4, _⟩ => ⟨S16384x64, .f32⟩
  | _, _ => ⟨S16x128x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x128x256x64_S524288x64 : S16x128x256x64.ShapeCasts S524288x64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S64x64_S64x64_0_0 : ∀ a, (![0, 0] : Fin 2 → Nat) a + S64x64.size a ≤ S64x64.size a
  h_S64x64 : 0 < S64x64.numel
  reduces_S16384x64_S16384 : S16384x64.Reduces [1] S16384
  shapeCasts_S16384_S16384x1 : S16384.ShapeCasts S16384x1
  reduces_S64x64_S64 : S64x64.Reduces [1] S64
  bitsLt_bf16_f32 : FTy.bits .bf16 < FTy.bits .f32
  transposes_S64x64_p1_0_S64x64 : S64x64.Transposes [1, 0] S64x64
  broadcasts_S16384x1_S16384x64 : S16384x1.Broadcasts S16384x64
  shapeCasts_S64_S1x64 : S64.ShapeCasts S1x64
  broadcasts_S1x64_S16384x64 : S1x64.Broadcasts S16384x64
  shapeCasts_S524288x64_S16x128x256x64 : S524288x64.ShapeCasts S16x128x256x64
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S524288x64.size a
  hwx0_0 : ∀ i : grid0.Coords, EltTy.bits .f32 = 32 ∨ (Rect.block (s := S524288x64) S16384x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S524288x64.size a
  hwx0_2 : ∀ i : grid0.Coords, EltTy.bits .f32 = 32 ∨ (Rect.block (s := S524288x64) S16384x64.size (cc0_transform_2 i) (hinb0_2 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_v0) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x128x256x64 : Shape := ⟨4, ![16, 128, 256, 64]⟩
abbrev S64x64 : Shape := ⟨2, ![64, 64]⟩
abbrev S_ : Shape := ⟨0, ![]⟩
abbrev S16x128x256 : Shape := ⟨3, ![16, 128, 256]⟩
abbrev S16x128x256x1 : Shape := ⟨4, ![16, 128, 256, 1]⟩
abbrev S64 : Shape := ⟨1, ![64]⟩
abbrev S1x1x1x64 : Shape := ⟨4, ![1, 1, 1, 64]⟩

abbrev nBuf : Space → Nat
  | .hbm => 18
  | .vmem => 0
  | .smem => 0
  | _ => 0

abbrev bufTy : (tb : Table) → Fin (tcTables nBuf tb) → BufTy
  | .hbm, ⟨0, _⟩ => ⟨S16x128x256x64, .f32⟩
  | .hbm, ⟨1, _⟩ => ⟨S64x64, .f32⟩
  | .hbm, ⟨2, _⟩ => ⟨S16x128x256x64, .f32⟩
  | .hbm, ⟨3, _⟩ => ⟨S_, .f32⟩
  | .hbm, ⟨4, _⟩ => ⟨S16x128x256, .f32⟩
  | .hbm, ⟨5, _⟩ => ⟨S16x128x256x1, .f32⟩
  | .hbm, ⟨6, _⟩ => ⟨S64x64, .f32⟩
  | .hbm, ⟨7, _⟩ => ⟨S_, .f32⟩
  | .hbm, ⟨8, _⟩ => ⟨S64, .f32⟩
  | .hbm, ⟨9, _⟩ => ⟨S16x128x256x64, .f32⟩
  | .hbm, ⟨10, _⟩ => ⟨S_, .f32⟩
  | .hbm, ⟨11, _⟩ => ⟨S16x128x256x64, .f32⟩
  | .hbm, ⟨12, _⟩ => ⟨S16x128x256x64, .f32⟩
  | .hbm, ⟨13, _⟩ => ⟨S16x128x256x64, .f32⟩
  | .hbm, ⟨14, _⟩ => ⟨S16x128x256x64, .f32⟩
  | .hbm, ⟨15, _⟩ => ⟨S1x1x1x64, .f32⟩
  | .hbm, ⟨16, _⟩ => ⟨S16x128x256x64, .f32⟩
  | .hbm, ⟨17, _⟩ => ⟨S16x128x256x64, .f32⟩
  | _, _ => ⟨S16x128x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16x128x256x64_S16x128x256_d3 : S16x128x256x64.ReducesTo [3] S16x128x256
  h_S_ : 0 < S_.numel
  bcast_S16x128x256_S16x128x256x1_0_1_2 : S16x128x256.BroadcastsInDim S16x128x256x1 (![0, 1, 2] : Fin 3 → Fin S16x128x256x1.rank)
  reducesTo_S64x64_S64_d1 : S64x64.ReducesTo [1] S64
  bcast_S_S16x128x256x64 : S_.BroadcastsInDim S16x128x256x64 (![] : Fin 0 → Fin S16x128x256x64.rank)
  bcast_S16x128x256x1_S16x128x256x64_0_1_2_3 : S16x128x256x1.BroadcastsInDim S16x128x256x64 (![0, 1, 2, 3] : Fin 4 → Fin S16x128x256x64.rank)
  bcast_S64_S1x1x1x64_3 : S64.BroadcastsInDim S1x1x1x64 (![3] : Fin 1 → Fin S1x1x1x64.rank)
  bcast_S1x1x1x64_S16x128x256x64_0_1_2_3 : S1x1x1x64.BroadcastsInDim S16x128x256x64 (![0, 1, 2, 3] : Fin 4 → Fin S16x128x256x64.rank)
  dot_S16x128x256x64_S64x64_S16x128x256x64_3_1_012_0_n_n_wf : DotDims.WF S16x128x256x64 S64x64 S16x128x256x64 [3] [1] [0, 1, 2] [0] [] []

variable [Facts₀]

def dot_S16x128x256x64_S64x64_S16x128x256x64_3_1_012_0_n_n : DotDims S16x128x256x64 S64x64 S16x128x256x64 where
  lhsContracting := [3]
  rhsContracting := [1]
  lhsNonContracting := [0, 1, 2]
  rhsNonContracting := [0]
  lhsBatch := []
  rhsBatch := []
  wf := dot_S16x128x256x64_S64x64_S16x128x256x64_3_1_012_0_n_n_wf

class Facts : Prop extends Facts₀ where

variable [Facts]
-- ==== Proof.Spec.lean ====
/-
  The squared Euclidean distance from every row of `x` to every row of `w`, in the expanded form
  `‖x‖² − 2·⟨x, w⟩ + ‖w‖²`, as ONE function of the two argument arrays over the extended reals; and the
  layout facts both programs' readings of it need: a row sum kept as a column and broadcast back over the
  columns, a vector turned into a one-row matrix, and the row-major flattening of the three leading axes of
  `[16,128,256,64]` into the `524288` rows of `[524288,64]`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.SqDist

/-! ## The function -/

abbrev S4 : Shape := ⟨4, ![16, 128, 256, 64]⟩
abbrev S2 : Shape := ⟨2, ![524288, 64]⟩
abbrev SW : Shape := ⟨2, ![64, 64]⟩

/-- The expanded squared distance between a row `xr` of `x` and a row `wr` of `w`:
    `Σ xr² − 2·Σ xr·wr + Σ wr²`, the factor two the f32 word both programs print. No law of the extended
    reals is used on it: both programs compute exactly this tree. -/
def expand (xr wr : Fin 64 → EReal) : EReal :=
  ((∑ k : Fin 64, xr k * xr k) - Ideal.ofBits .f32 0x40000000#32 * (∑ k : Fin 64, xr k * wr k))
    + (∑ k : Fin 64, wr k * wr k)

/-- The result over `[16,128,256,64]`: entry `(b, h, w, u)` is the distance from `x[b,h,w,:]` to `w[u,:]`. -/
def dist4 (X : S4.Idx → EReal) (W : SW.Idx → EReal) : S4.Idx → EReal :=
  fun i => expand (fun k => X (ix4 (i 0) (i 1) (i 2) k)) (fun k => W (ix2 (i 3) k))

/-- The same over the flattened rows `[524288,64]`: entry `(r, u)` is the distance from row `r` to `w[u,:]`. -/
def dist2 (X : S2.Idx → EReal) (W : SW.Idx → EReal) : S2.Idx → EReal :=
  fun j => expand (fun k => X (ix2 (j 0) k)) (fun k => W (ix2 (j 1) k))

theorem dist4_ix4 (X : S4.Idx → EReal) (W : SW.Idx → EReal) (b : Fin 16) (h : Fin 128) (w : Fin 256) (u : Fin 64) :
    dist4 X W (ix4 b h w u) = expand (fun k => X (ix4 b h w k)) (fun k => W (ix2 u k)) := rfl

theorem dist2_ix2 (X : S2.Idx → EReal) (W : SW.Idx → EReal) (r : Fin 524288) (u : Fin 64) :
    dist2 X W (ix2 r u) = expand (fun k => X (ix2 r k)) (fun k => W (ix2 u k)) := rfl

/-! ## Layout: a column kept from a row sum, a vector as one row -/

section Layout
variable {α : Type}

/-- An `[a]` vector cast to a column `[a, 1]` reads, at `(p, z)`, the vector at `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane sum along the second axis, read at a row -/

/-- At the extended reals the sum of a matrix along its second axis is, at row `p`, the sum of that row. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun c => Fin.ext ?_)
  match c with
  | ⟨0, _⟩ => rfl
  | ⟨1, _⟩ => rfl

/-! ## The flattening of the three leading axes -/

/-- The row of `[524288,64]` that holds `x[b,h,w,:]`. -/
def row (b : Fin 16) (h : Fin 128) (w : Fin 256) : Fin 524288 :=
  ⟨(b.val * 128 + h.val) * 256 + w.val, by have := b.isLt; have := h.isLt; have := w.isLt; omega⟩

/-- `x` flattened to rows reads, at `(row b h w, k)`, `x[b,h,w,k]`. -/
theorem flatten_apply {α : Type} (X : S4.Idx → α) (hc : S4.ShapeCasts S2) (b : Fin 16) (h : Fin 128) (w : Fin 256) (k : Fin 64) :
    shapeCast S2 X hc (ix2 (row b h w) k) = X (ix4 b h w k) :=
  shapeCast_apply X hc _ _ (by
    rw [Shape.rowMajor_val_two, Shape.rowMajor_val_four]
    rfl)

/-- A `[524288,64]` array shaped back to `[16,128,256,64]` reads, at `(b,h,w,u)`, the array at `(row b h w, u)`. -/
theorem unflatten_apply {α : Type} (Y : S2.Idx → α) (hc : S2.ShapeCasts S4) (b : Fin 16) (h : Fin 128) (w : Fin 256) (u : Fin 64) :
    shapeCast S4 Y hc (ix4 b h w u) = Y (ix2 (row b h w) u) :=
  shapeCast_apply Y hc _ _ (by
    rw [Shape.rowMajor_val_two, Shape.rowMajor_val_four]
    rfl)

/-- The distance computed on the flattened rows and shaped back is the distance over `[16,128,256,64]`. -/
theorem dist2_flatten (X : S4.Idx → EReal) (W : SW.Idx → EReal) (hc : S4.ShapeCasts S2) (hc' : S2.ShapeCasts S4) :
    shapeCast S4 (dist2 (shapeCast S2 X hc) W) hc' = dist4 X W := by
  funext i
  obtain ⟨b, h, w, u, rfl⟩ : ∃ (b : Fin 16) (h : Fin 128) (w : Fin 256) (u : Fin 64), i = ix4 b h w u :=
    ⟨i 0, i 1, i 2, i 3, eq_ix4 i⟩
  rw [unflatten_apply, dist2_ix2, dist4_ix4]
  exact congrArg (fun f => expand f _) (funext fun k => flatten_apply X hc b h w k)

end Cert.SqDist

end
-- ==== Proof.KernelPayload.lean ====
/-
  What the kernel body stores, read at one entry of its block: from a block of rows `x0` and the whole
  prototype matrix `x1`, entry `(p, q)` is the expanded squared distance between row `p` of `x0` and row `q`
  of `x1`. The narrowing of both operands before the product is the identity on extended reals, the transpose
  puts row `q` of `x1` in column `q`, the product into a zero accumulator is the sum over the shared axis, and
  the two broadcasts put a row's sum of squares in every column and a prototype's in every row.
-/
import proofs.«123011_j87582973100610_1_alg».proof.Proof.Gen.KernelIdeal.Skeleton
import proofs.«123011_j87582973100610_1_alg».proof.Proof.Spec

noncomputable section

open Idealize.ShloMosaic Idealize.ShloMosaic.TcCoe Idealize.SL.Sem Idealize.ShloMosaic.ValueIdx

namespace Cert.KernelIdeal.Hand

open Cert.KernelIdeal Cert.KernelIdeal.Gen

/-! ## The product's operand indices, by coordinates -/

theorem lhs_dot_0 (j : S16384x64.Idx) (q : dot_S16384x64_S64x64_S16384x64_1_0_0_1_n_n.contr.Idx) :
    (dot_S16384x64_S64x64_S16384x64_1_0_0_1_n_n.lhsIdx j q 0).val = (j 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
theorem lhs_dot_1 (j : S16384x64.Idx) (q : dot_S16384x64_S64x64_S16384x64_1_0_0_1_n_n.contr.Idx) :
    (dot_S16384x64_S64x64_S16384x64_1_0_0_1_n_n.lhsIdx j q 1).val = (q ⟨0, by decide⟩).val :=
  dot_S16384x64_S64x64_S16384x64_1_0_0_1_n_n.lhsIdx_val_of_single rfl j q
theorem rhs_dot_0 (j : S16384x64.Idx) (q : dot_S16384x64_S64x64_S16384x64_1_0_0_1_n_n.contr.Idx) :
    (dot_S16384x64_S64x64_S16384x64_1_0_0_1_n_n.rhsIdx j q 0).val = (q ⟨0, by decide⟩).val :=
  dot_S16384x64_S64x64_S16384x64_1_0_0_1_n_n.rhsIdx_val_of_single rfl j q
theorem rhs_dot_1 (j : S16384x64.Idx) (q : dot_S16384x64_S64x64_S16384x64_1_0_0_1_n_n.contr.Idx) :
    (dot_S16384x64_S64x64_S16384x64_1_0_0_1_n_n.rhsIdx j q 1).val = (j 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl

/-- The product of a block of rows with a `[64,64]` matrix into a zero accumulator, at `(p, q)`: the sum over the
    shared axis of row `p` of the left times column `q` of the right. -/
theorem dot_apply (l : FVec Ideal S16384x64 .bf16) (r : FVec Ideal S64x64 .bf16) (p : Fin 16384) (q : Fin 64) :
    matmul dot_S16384x64_S64x64_S16384x64_1_0_0_1_n_n none l r (constant S16384x64 .f32 0x00000000#32) (ix2 p q)
      = ∑ k : Fin 64, l (ix2 p k) * r (ix2 k q) := by
  simp only [matmul]
  rw [Ideal.matmul_constant_zero_apply, ← Equiv.sum_comp (ValueIdx.contrEquiv1 dot_S16384x64_S64x64_S16384x64_1_0_0_1_n_n 64 rfl rfl).symm]
  refine Finset.sum_congr rfl fun k _ => ?_
  have hk := ValueIdx.contrEquiv1_symm_val dot_S16384x64_S64x64_S16384x64_1_0_0_1_n_n 64 rfl rfl k
  have el : dot_S16384x64_S64x64_S16384x64_1_0_0_1_n_n.lhsIdx (ix2 p q) ((ValueIdx.contrEquiv1 dot_S16384x64_S64x64_S16384x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S16384x64_S64x64_S16384x64_1_0_0_1_n_n.rhsIdx (ix2 p q) ((ValueIdx.contrEquiv1 dot_S16384x64_S64x64_S16384x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-! ## The stored value at an entry -/

/-- Entry `(p, q)` of what the body stores is the expanded squared distance between row `p` of the block and
    row `q` of the prototypes. -/
theorem pay_apply (x0 : Vec Ideal S16384x64 .f32) (x1 : Vec Ideal S64x64 .f32) (p : Fin 16384) (q : Fin 64) :
    k0_pay1 (F := Ideal) x0 x1 (ix2 p q) = Cert.SqDist.expand (fun k => x0 (ix2 p k)) (fun k => x1 (ix2 q k)) := by
  unfold k0_pay1 Cert.SqDist.expand
  dsimp only
  rw [shapeCast_self]
  refine congrArg₂ (· + ·) (congrArg₂ (· - ·) ?_ (congrArg₂ (· * ·) rfl ?_)) ?_
  · -- the row's sum of squares, kept as a column and broadcast over the columns
    refine (Cert.SqDist.broadcastTo_a1_ab_apply _ broadcasts_S16384x1_S16384x64 p q).trans ?_
    refine (Cert.SqDist.shapeCast_a_a1_apply _ shapeCasts_S16384_S16384x1 p 0).trans ?_
    exact Cert.SqDist.rowSum_apply (mulf x0 x0) reduces_S16384x64_S16384 (.inl rfl) rfl p
  · -- the product with the transposed prototypes: row p of the block against row q of the prototypes
    refine (dot_apply _ _ p q).trans (Finset.sum_congr rfl fun k _ => ?_)
    exact congrArg (x0 (ix2 p k) * ·) ((transpose_ix2_apply (α := EReal) _ transposes_S64x64_p1_0_S64x64 k q).trans rfl)
  · -- the prototype's sum of squares, as one row broadcast over the rows
    refine (broadcastTo_1b_ab_apply _ broadcasts_S1x64_S16384x64 p q).trans ?_
    refine (shapeCast_a_1a_apply _ shapeCasts_S64_S1x64 0 q).trans ?_
    exact Cert.SqDist.rowSum_apply (mulf x1 x1) reduces_S64x64_S64 (.inl rfl) rfl q

end Cert.KernelIdeal.Hand

end
-- ==== Proof.KernelValue.lean ====
/-
  The kernel's result array. Grid point `t` reads rows `16384·t … 16384·t + 16383` of the flattened `x` and the
  whole prototype matrix, and writes the same rows of the result: what it writes back is block `t` of the
  squared distance `dist2` of the flattened `x` and `w`. The 32 blocks tile the `524288` rows, so the region's
  result array ends at `dist2`; the reshape before the region is the row-major flattening, the reshape after it
  its inverse, so @main's result is `dist4` of the two arguments.
-/
import proofs.«123011_j87582973100610_1_alg».proof.Proof.Gen.KernelIdeal.Frame
import proofs.«123011_j87582973100610_1_alg».proof.Proof.KernelPayload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## One entry of a point's block -/

/-- Entry `j` of what the body stores from a block of rows `x0` and the prototypes `x1` is the distance `dist2 X W` at
    an array entry `i` in the same column, once row `j 0` of `x0` is row `i 0` of `X` and `x1` is `W`. -/
theorem entry_eq (x0 : Vec Ideal S16384x64 .f32) (x1 : Vec Ideal S64x64 .f32) (X : S524288x64.Idx → EReal) (W : S64x64.Idx → EReal)
    (j : S16384x64.Idx) (i : S524288x64.Idx)
    (hx : ∀ k : Fin 64, x0 (ix2 ⟨(j 0).val, idx2_lt0 j⟩ k) = X (ix2 ⟨(i 0).val, idx2_lt0 i⟩ k))
    (hw : ∀ k : Fin 64, x1 (ix2 ⟨(j 1).val, idx2_lt1 j⟩ k) = W (ix2 ⟨(i 1).val, idx2_lt1 i⟩ k)) :
    k0_pay1 (F := Ideal) x0 x1 j = Cert.SqDist.dist2 X W i := by
  obtain ⟨p, q, rfl⟩ : ∃ (p : Fin 16384) (q : Fin 64), j = ix2 p q := ⟨j 0, j 1, eq_ix2 j⟩
  obtain ⟨r, u, rfl⟩ : ∃ (r : Fin 524288) (u : Fin 64), i = ix2 r u := ⟨i 0, i 1, eq_ix2 i⟩
  rw [pay_apply, Cert.SqDist.dist2_ix2]
  exact congrArg₂ Cert.SqDist.expand (funext hx) (funext hw)

/-! ## The blocks -/

/-- The printed index maps over the 32 points: the rows window and the result window are at block `t`, the
    prototypes at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the squared distance of the flattened `x` and `w` as the region finds them. -/
theorem flushed_eq (c : Dev nD) (t : Fin cfg0.N) :
    (dats m 0 c).flushed 2 t
      = ((cfg0.win 2).blk t).view.read (Elt Ideal) (Cert.SqDist.dist2 (V m c main_v0) (V m c main_arg1)) := by
  show (cfg0.win 2).cut (grid0.coords t) ((dats m 0 c).after 2 t) = _
  rw [after0_2]
  unfold out0_2
  rw [View.canon_unit_zero hz]
  simp only [View.ld_unit_zero (S := S16384x64) hz, View.ld_unit_zero (S := S64x64) hz]
  obtain ⟨e0, e1, e2, e3, e4, e5⟩ := idx_facts t
  funext j
  refine entry_eq (iblk m c 0 t) (iblk m c 1 t) (V m c main_v0) (V m c main_arg1) j (((cfg0.win 2).blk t).view.emb j) (fun k => ?_) (fun k => ?_)
  · show V m c main_v0 (((cfg0.win 0).blk t).view.emb (ix2 ⟨(j 0).val, idx2_lt0 j⟩ k)) = V m c main_v0 _
    refine congrArg (V m c main_v0) (funext fun a => Fin.ext ?_)
    match a with
    | ⟨0, _⟩ => show win0_0.index t (0 : Fin 2) * 16384 + 1 * (j 0).val = win0_2.index t (0 : Fin 2) * 16384 + 1 * (j 0).val; omega
    | ⟨1, _⟩ => show win0_0.index t (1 : Fin 2) * 64 + 1 * k.val = k.val; omega
  · show V m c main_arg1 (((cfg0.win 1).blk t).view.emb (ix2 ⟨(j 1).val, idx2_lt1 j⟩ k)) = V m c main_arg1 _
    refine congrArg (V m c main_arg1) (funext fun a => Fin.ext ?_)
    match a with
    | ⟨0, _⟩ => show win0_1.index t (0 : Fin 2) * 64 + 1 * (j 1).val = win0_2.index t (1 : Fin 2) * 64 + 1 * (j 1).val; omega
    | ⟨1, _⟩ => show win0_1.index t (1 : Fin 2) * 64 + 1 * k.val = k.val; omega

/-- An entry of the result array is in point `t`'s block iff each coordinate is in the block's range on its axis. -/
theorem mem_blk (t : Fin cfg0.N) (i : S524288x64.Idx) :
    i ∈ ((cfg0.win 2).blk t).view.set ↔ ∀ a : Fin 2, win0_2.index t a * S16384x64.size a ≤ (i a).val ∧ (i a).val < win0_2.index t a * S16384x64.size a + S16384x64.size a := by
  show i ∈ ((View.whole main_v1).slice (win0_2.rect t)).set ↔ _
  rw [View.set_slice_whole, Rect.mem_set_unit]
  exact Iff.rfl

/-- Every entry of the result array is in the block of the point its row falls in: row `r` is in block `r / 16384`. -/
theorem cover (i : S524288x64.Idx) : ∃ t : Fin cfg0.N, (cfg0.win 2).flush t = true ∧ i ∈ ((cfg0.win 2).blk t).view.set := by
  have hi0 : (i 0).val < 524288 := (i 0).isLt
  have hi1 : (i 1).val < 64 := (i 1).isLt
  have hN : cfg0.N = 32 := N_0
  have ht : (i 0).val / 16384 < cfg0.N := by rw [hN]; omega
  obtain ⟨-, -, -, -, e4, e5⟩ := idx_facts ⟨(i 0).val / 16384, ht⟩
  refine ⟨⟨(i 0).val / 16384, ht⟩, flush0_2 _, ?_⟩
  rw [mem_blk]
  intro a
  match a with
  | ⟨0, _⟩ =>
    show win0_2.index ⟨(i 0).val / 16384, ht⟩ (0 : Fin 2) * 16384 ≤ (i 0).val ∧ (i 0).val < win0_2.index ⟨(i 0).val / 16384, ht⟩ (0 : Fin 2) * 16384 + 16384
    rw [e4]
    show (i 0).val / 16384 * 16384 ≤ (i 0).val ∧ (i 0).val < (i 0).val / 16384 * 16384 + 16384
    omega
  | ⟨1, _⟩ =>
    show win0_2.index ⟨(i 0).val / 16384, ht⟩ (1 : Fin 2) * 64 ≤ (i 1).val ∧ (i 1).val < win0_2.index ⟨(i 0).val / 16384, ht⟩ (1 : Fin 2) * 64 + 64
    rw [e5]
    omega

/-- The region's result array after the run. -/
theorem final (c : Dev nD) : (dats m 0 c).arrAt 2 cfg0.N = Cert.SqDist.dist2 (V m c main_v0) (V m c main_arg1) :=
  (dats m 0 c).arrAt_eq_of_cover 2 (Cert.SqDist.dist2 (V m c main_v0) (V m c main_arg1)) (fun t _ => flushed_eq m c t) cover

/-! ## The host lines around the region -/

/-- The region finds in `main_v0` the first argument flattened to rows. -/
theorem V_main_v0 (c : Dev nD) :
    (V m c main_v0 : S524288x64.Idx → EReal) = shapeCast S524288x64 (m ((c : Thread nD τ).loc main_arg0)) shapeCasts_S16x128x256x64_S524288x64 := by
  show StableHlo.after hostOps0 (fun b => m (c, b)) (Proc.devRef .tc main_v0) = _
  after_results
  rfl

/-- @main's result: the region's result array shaped back to `[16,128,256,64]`. -/
theorem tail_eq (c : Dev nD) :
    (Pipeline.afterTail₀ cfgs (dats m) 0 (V0 m) [hostOps1] c main_v2 : S16x128x256x64.Idx → EReal)
      = shapeCast S16x128x256x64 ((dats m 0 c).arrAt 2 cfg0.N) shapeCasts_S524288x64_S16x128x256x64 := by
  unfold Pipeline.afterTail₀
  show StableHlo.after hostOps1 _ (Proc.devRef .tc main_v2) = _
  after_results
  exact congrArg (fun y => shapeCast S16x128x256x64 y shapeCasts_S524288x64_S16x128x256x64)
    (Pipeline.withArrays_arr spec0 launch0.win.arr_inj c _ _ 2)

/-! ## The run, read -/

/-- Every weakly fair execution of the kernel's @main terminates with its result at the squared distance of the two
    arguments and the arguments unchanged. -/
theorem run : θ_run defs (onTc (τ := τ) (main (F := Ideal))) ⟨m, fun _ => 0, ρ⟩ fun r => ∀ c : Dev nD,
      r.2.mem ((c : Thread nD τ).loc main_v2) = Cert.SqDist.dist4 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by
      refine ((h c).2 main_v2 (Pipeline.mem_restRefs_of main_v2 (by decide) (by decide))).trans ?_
      rw [tail_eq, final, V_main_v0, V_main_arg1]
      exact Cert.SqDist.dist2_flatten _ _ _ _,
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Hand

end
-- ==== Proof.RefSide.lean ====
/-
  The reference at the extended reals is the squared distance `dist4`: its row sums of squares start from the
  zero word (which is the real zero, so the start drops out), its product with `wᵀ` is a sum over the shared
  axis, and its broadcasts read a row's sum at every column and a prototype's sum at every row.
-/
import proofs.«123011_j87582973100610_1_alg».proof.Proof.Gen.ReferenceIdeal.Read
import proofs.«123011_j87582973100610_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- Index by index the reference's last stage is the expanded squared distance of the two arguments. -/
theorem ref_eq (X : (⟨S16x128x256x64, .f32⟩ : BufTy).Contents (Elt Ideal)) (W : (⟨S64x64, .f32⟩ : BufTy).Contents (Elt Ideal)) :
    val_main_v12 (F := Ideal) X W = Cert.SqDist.dist4 X W := by
  funext i
  obtain ⟨b, h, w, u, rfl⟩ : ∃ (b : Fin 16) (h : Fin 128) (w : Fin 256) (u : Fin 64), i = ix4 b h w u :=
    ⟨i 0, i 1, i 2, i 3, eq_ix4 i⟩
  -- the operand indices the stages compose, as coordinates
  have ex : ∀ k : Fin 64, idx_main_v1 (idx_main_v2 (idx_main_v8 (ix4 b h w u))) k = ix4 b h w k := fun k =>
    funext fun a => Fin.ext (by match a with | ⟨0, _⟩ => rfl | ⟨1, _⟩ => rfl | ⟨2, _⟩ => rfl | ⟨3, _⟩ => rfl)
  have el : ∀ k : Fin 64, lidx_main_v5 (ix4 b h w u) k = ix4 b h w k := fun k =>
    funext fun a => Fin.ext (by match a with | ⟨0, _⟩ => rfl | ⟨1, _⟩ => rfl | ⟨2, _⟩ => rfl | ⟨3, _⟩ => rfl)
  have er : ∀ k : Fin 64, ridx_main_v5 (ix4 b h w u) k = ix2 u k := fun k =>
    funext fun a => Fin.ext (by match a with | ⟨0, _⟩ => rfl | ⟨1, _⟩ => rfl)
  have ew : ∀ k : Fin 64, idx_main_v4 (idx_main_v10 (idx_main_v11 (ix4 b h w u))) k = ix2 u k := fun k =>
    funext fun a => Fin.ext (by match a with | ⟨0, _⟩ => rfl | ⟨1, _⟩ => rfl)
  rw [val_main_v12_apply, val_main_v9_apply, val_main_v8_apply, val_main_v2_apply, val_main_v1_apply,
    val_main_v7_apply, val_main_v6_apply, val_main_v5_apply, val_main_v11_apply, val_main_v10_apply, val_main_v4_apply,
    Cert.SqDist.dist4_ix4]
  simp only [val_main_v0_apply, val_main_v3_apply, val_main_cst_apply, val_main_cst_0_apply, val_main_cst_1_apply,
    Ideal.mulf_def, Ideal.addf_def, Ideal.subf_def, Ideal.ofBits_def, Ideal.ofBits_zero_f32, zero_add, ex, el, er, ew]
  rfl

end Cert.ReferenceIdeal.RefValue

end
-- ==== Proof.lean ====
/-
  Squared Euclidean distance from every row of `x : f32[16,128,256,64]` to every prototype `w[u,:]`, `w : f32[64,64]`,
  in the expanded form `Σ_d x² − 2·Σ_d x·w + Σ_d w²`.

  The kernel flattens `x` to `524288` rows, and at each of 32 grid points takes `16384` rows and the whole of `w`:
  the row sums of squares on the vector unit, the cross term as a product of the two operands narrowed to bf16 with
  `wᵀ`, accumulated in f32 from zero, and the combination `x² − 2·xw + w²`. The reference does the same three
  reductions on the host over the unflattened array (the cross term an einsum over the last axis) and the same
  combination in the same order.

  At the extended reals a change of float format is the identity, the product into a zero accumulator and the
  einsum are both the plain sum over the shared axis, a lane sum and a host sum from the zero word are both the plain
  row sum, and the factor two is the same word in both programs. So both compute, entry by entry, the one tree
  `(Σ x² − 2·Σ x·w) + Σ w²` (Proof/Spec.lean `expand`, `dist4`): no law of the extended reals beyond `0 + s = s` is
  needed, and the finiteness of the inputs is never used.

  Proof/KernelPayload.lean reads one stored entry, Proof/KernelValue.lean the blocks, their cover of the rows and
  the two reshapes around the region, Proof/RefSide.lean the reference's stages. The idealized kernel is the kernel's own
  text read at the extended reals, no operation rewritten, so `preserves` states nothing to prove.
-/
import proofs.«123011_j87582973100610_1_alg».proof.Defs
import proofs.«123011_j87582973100610_1_alg».proof.Proof.Gen.Kernel
import proofs.«123011_j87582973100610_1_alg».proof.Proof.Gen.Kernel.Skeleton
import proofs.«123011_j87582973100610_1_alg».proof.Proof.Gen.Kernel.Launch
import proofs.«123011_j87582973100610_1_alg».proof.Proof.Gen.Kernel.Points
import proofs.«123011_j87582973100610_1_alg».proof.Proof.Gen.Kernel.Frame
import proofs.«123011_j87582973100610_1_alg».proof.Proof.Gen.KernelIdeal
import proofs.«123011_j87582973100610_1_alg».proof.Proof.Gen.KernelIdeal.Skeleton
import proofs.«123011_j87582973100610_1_alg».proof.Proof.Gen.KernelIdeal.Launch
import proofs.«123011_j87582973100610_1_alg».proof.Proof.Gen.KernelIdeal.Points
import proofs.«123011_j87582973100610_1_alg».proof.Proof.Gen.KernelIdeal.Frame
import proofs.«123011_j87582973100610_1_alg».proof.Proof.Gen.ReferenceIdeal
import proofs.«123011_j87582973100610_1_alg».proof.Proof.Gen.ReferenceIdeal.Run
import proofs.«123011_j87582973100610_1_alg».proof.Proof.Gen.ReferenceIdeal.Read
import proofs.«123011_j87582973100610_1_alg».proof.Proof.Gen.Pre_finite_inputs
import proofs.«123011_j87582973100610_1_alg».proof.Proof.KernelValue
import proofs.«123011_j87582973100610_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the squared distance `dist4` of arguments that agree. -/
theorem algebraic : Cert.algebraic_KernelIdeal_ReferenceIdeal := by
  intro m ρ m' ρ' _ hagree
  refine ⟨fun c => Cert.SqDist.dist4 (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
